-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1x512x1 : Shape := ⟨5, ![16, 1, 1, 512, 1]⟩
abbrev S16x8x512x512x2 : Shape := ⟨5, ![16, 8, 512, 512, 2]⟩
abbrev S1x512 : Shape := ⟨2, ![1, 512]⟩
abbrev S16x512 : Shape := ⟨2, ![16, 512]⟩
abbrev S_ : Shape := ⟨0, ![]⟩

class Facts : Prop where
  bcast_S_S16x1x1x512x1 : S_.BroadcastsInDim S16x1x1x512x1 (![] : Fin 0 → Fin S16x1x1x512x1.rank)
  reducesTo_S16x1x1x512x1_S_d0_1_2_3_4 : S16x1x1x512x1.ReducesTo [0, 1, 2, 3, 4] S_
  h_S_ : 0 < S_.numel
  bcast_S_S16x8x512x512x2 : S_.BroadcastsInDim S16x8x512x512x2 (![] : Fin 0 → Fin S16x8x512x512x2.rank)
  reducesTo_S16x8x512x512x2_S_d0_1_2_3_4 : S16x8x512x512x2.ReducesTo [0, 1, 2, 3, 4] S_
  bcast_S_S1x512 : S_.BroadcastsInDim S1x512 (![] : Fin 0 → Fin S1x512.rank)
  reducesTo_S1x512_S_d0_1 : S1x512.ReducesTo [0, 1] S_
  bcast_S_S16x512 : S_.BroadcastsInDim S16x512 (![] : Fin 0 → Fin S16x512.rank)
  reducesTo_S16x512_S_d0_1 : S16x512.ReducesTo [0, 1] S_

variable [Facts]

def fn_part1 {F : FTy → Type} [FloatOps F] (main_v13 : IVec S_ 1) (main_v16 : IVec S16x512 1) : IVec S_ 1 :=
  let main_c_5 : IVec S_ 1 := constantI S_ 1 1#1
  let main_v17 : IVec S_ 1 := (fun x v => Host.reduce IntOp.andi x v reducesTo_S16x512_S_d0_1 h_S_) main_v16 main_c_5
  let main_v18 : IVec S_ 1 := andi main_v13 main_v17
  main_v18

def fn {F : FTy → Type} [FloatOps F] (main_arg0 : FVec F S16x1x1x512x1 .f32) (main_arg1 : FVec F S16x8x512x512x2 .f32) (main_arg2 : FVec F S1x512 .f32) (main_arg3 : FVec F S16x512 .f32) : IVec S_ 1 :=
  let main_v0 : FVec F S16x1x1x512x1 .f32 := Host.absf main_arg0
  let main_cst : FVec F S_ .f32 := constant S_ .f32 0x7F800000#32
  let main_v1 : FVec F S16x1x1x512x1 .f32 := broadcastInDim S16x1x1x512x1 ![] bcast_S_S16x1x1x512x1 main_cst
  let main_v2 : IVec S16x1x1x512x1 1 := cmpf .olt main_v0 main_v1
  let main_c : IVec S_ 1 := constantI S_ 1 1#1
  let main_v3 : IVec S_ 1 := (fun x v => Host.reduce IntOp.andi x v reducesTo_S16x1x1x512x1_S_d0_1_2_3_4 h_S_) main_v2 main_c
  let main_v4 : FVec F S16x8x512x512x2 .f32 := Host.absf main_arg1
  let main_cst_0 : FVec F S_ .f32 := constant S_ .f32 0x7F800000#32
  let main_v5 : FVec F S16x8x512x512x2 .f32 := broadcastInDim S16x8x512x512x2 ![] bcast_S_S16x8x512x512x2 main_cst_0
  let main_v6 : IVec S16x8x512x512x2 1 := cmpf .olt main_v4 main_v5
  let main_c_1 : IVec S_ 1 := constantI S_ 1 1#1
  let main_v7 : IVec S_ 1 := (fun x v => Host.reduce IntOp.andi x v reducesTo_S16x8x512x512x2_S_d0_1_2_3_4 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S16x512 .f32 := Host.absf main_arg3
  let main_cst_4 : FVec F S_ .f32 := constant S_ .f32 0x7F800000#32
  let main_v15 : FVec F S16x512 .f32 := broadcastInDim S16x512 ![] bcast_S_S16x512 main_cst_4
  let main_v16 : IVec S16x512 1 := cmpf .olt main_v14 main_v15
  fn_part1 (F := F) main_v13 main_v16
-- ==== Kernel.lean ====
abbrev S16x1x1x512x1 : Shape := ⟨5, ![16, 1, 1, 512, 1]⟩
abbrev S16x8x512x512x2 : Shape := ⟨5, ![16, 8, 512, 512, 2]⟩
abbrev S1x512 : Shape := ⟨2, ![1, 512]⟩
abbrev S16x512 : Shape := ⟨2, ![16, 512]⟩
abbrev S16 : Shape := ⟨1, ![16]⟩
abbrev S16x1 : Shape := ⟨2, ![16, 1]⟩
abbrev S16x8x512x2x512 : Shape := ⟨5, ![16, 8, 512, 2, 512]⟩
abbrev S16x8x1024x512 : Shape := ⟨4, ![16, 8, 1024, 512]⟩
abbrev S16x1x512 : Shape := ⟨3, ![16, 1, 512]⟩
abbrev S1x1x512 : Shape := ⟨3, ![1, 1, 512]⟩
abbrev S1x1x1024x512 : Shape := ⟨4, ![1, 1, 1024, 512]⟩
abbrev S1x1x1x512 : Shape := ⟨4, ![1, 1, 1, 512]⟩

abbrev nBuf : Space → Nat
  | .hbm => 15
  | .vmem => 11
  | .smem => 0
  | _ => 0

abbrev bufTy : (tb : Table) → Fin (tcTables nBuf tb) → BufTy
  | .hbm, ⟨0, _⟩ => ⟨S16x1x1x512x1, .f32⟩
  | .hbm, ⟨1, _⟩ => ⟨S16x8x512x512x2, .f32⟩
  | .hbm, ⟨2, _⟩ => ⟨S1x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .hbm, ⟨7, _⟩ => ⟨S16x8x512x2x512, .f32⟩
  | .hbm, ⟨8, _⟩ => ⟨S16x8x1024x512, .f32⟩
  | .hbm, ⟨9, _⟩ => ⟨S16x1x512, .f32⟩
  | .hbm, ⟨10, _⟩ => ⟨S16x8x1024x512, .f32⟩
  | .hbm, ⟨11, _⟩ => ⟨S16x8x512x2x512, .f32⟩
  | .hbm, ⟨12, _⟩ => ⟨S16x8x512x512x2, .f32⟩
  | .hbm, ⟨13, _⟩ => ⟨S16x1x1x512x1, .f32⟩
  | .hbm, ⟨14, _⟩ => ⟨S16x1x1x512x1, .f32⟩
  | .local _ .vmem, ⟨0, _⟩ => ⟨S16x512, .f32⟩
  | .local _ .vmem, ⟨1, _⟩ => ⟨S1x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S1x1x512, .f32⟩
  | .local _ .vmem, ⟨6, _⟩ => ⟨S1x1x512, .f32⟩
  | .local _ .vmem, ⟨7, _⟩ => ⟨S1x1x1024x512, .f32⟩
  | .local _ .vmem, ⟨8, _⟩ => ⟨S1x1x1024x512, .f32⟩
  | .local _ .vmem, ⟨9, _⟩ => ⟨S1x1x1024x512, .f32⟩
  | .local _ .vmem, ⟨10, _⟩ => ⟨S1x1x1024x512, .f32⟩
  | _, _ => ⟨S16x1x1x512x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := .none

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S16x1x1x512x1_S16x512 : S16x1x1x512x1.ShapeCasts S16x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  reduces_S16x512_S16 : S16x512.Reduces [1] S16
  shapeCasts_S16_S16x1 : S16.ShapeCasts S16x1
  broadcasts_S16x1_S16x512 : S16x1.Broadcasts S16x512
  natLt_1_32 : 1 < 32
  transposes_S16x8x512x512x2_S16x8x512x2x512_0_1_2_4_3 : S16x8x512x512x2.Transposes [0, 1, 2, 4, 3] S16x8x512x2x512
  shapeCasts_S16x8x512x2x512_S16x8x1024x512 : S16x8x512x2x512.ShapeCasts S16x8x1024x512
  shapeCasts_S16x512_S16x1x512 : S16x512.ShapeCasts S16x1x512
  inb_S1x1x1024x512_S1x1x1024x512_0_0_0_0 : ∀ a, (![0, 0, 0, 0] : Fin 4 → Nat) a + S1x1x1024x512.size a ≤ S1x1x1024x512.size a
  h_S1x1x1024x512 : 0 < S1x1x1024x512.numel
  shapeCasts_S1x1x1024x512_S1x1x1024x512 : S1x1x1024x512.ShapeCasts S1x1x1024x512
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  shapeCasts_S1x1x512_S1x1x1x512 : S1x1x512.ShapeCasts S1x1x1x512
  broadcasts_S1x1x1x512_S1x1x1024x512 : S1x1x1x512.Broadcasts S1x1x1024x512
  shapeCasts_S16x8x1024x512_S16x8x512x2x512 : S16x8x1024x512.ShapeCasts S16x8x512x2x512
  transposes_S16x8x512x2x512_S16x8x512x512x2_0_1_2_4_3 : S16x8x512x2x512.Transposes [0, 1, 2, 4, 3] S16x8x512x512x2
  shapeCasts_S16x512_S16x1x1x512x1 : S16x512.ShapeCasts S16x1x1x512x1
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512.size a ≤ S16x1x512.size a
  hwx1_0 : ∀ i : grid1.Coords, EltTy.bits .f32 = 32 ∨ (Rect.block (s := S16x1x512) S1x1x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x512.size a ≤ S16x8x1024x512.size a
  hwx1_1 : ∀ i : grid1.Coords, EltTy.bits .f32 = 32 ∨ (Rect.block (s := S16x8x1024x512) S1x1x1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x512.size a ≤ S16x8x1024x512.size a
  hwx1_2 : ∀ i : grid1.Coords, EltTy.bits .f32 = 32 ∨ (Rect.block (s := S16x8x1024x512) S1x1x1024x512.size (cc1_transform_2 i) (hinb1_2 i)).WholeWords (EltTy.packing .f32)

variable [Facts₀]

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg3) false false (stage0_2 0) (sem0_2 0) (Memref.isWhole_whole _) (hstage0_2 0)

abbrev win0_3 : Pipeline.Window sig grid0 :=
  Pipeline.Window.whole (Memref.whole main_v1_0) true false (stage0_3 0) (sem0_3 0) (Memref.isWhole_whole _) (hstage0_3 0)

abbrev win0_4 : Pipeline.Window sig grid0 :=
  Pipeline.Window.whole (Memref.whole main_v1_1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S1x1x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1x1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1x1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x1x1x512x1 : Shape := ⟨5, ![16, 1, 1, 512, 1]⟩
abbrev S16x8x512x512x2 : Shape := ⟨5, ![16, 8, 512, 512, 2]⟩
abbrev S1x512 : Shape := ⟨2, ![1, 512]⟩
abbrev S16x512 : Shape := ⟨2, ![16, 512]⟩
abbrev S_ : Shape := ⟨0, ![]⟩
abbrev S16 : Shape := ⟨1, ![16]⟩
abbrev S16x1 : Shape := ⟨2, ![16, 1]⟩

abbrev nBuf : Space → Nat
  | .hbm => 102
  | .vmem => 0
  | .smem => 0
  | _ => 0

abbrev bufTy : (tb : Table) → Fin (tcTables nBuf tb) → BufTy
  | .hbm, ⟨0, _⟩ => ⟨S16x1x1x512x1, .f32⟩
  | .hbm, ⟨1, _⟩ => ⟨S16x8x512x512x2, .f32⟩
  | .hbm, ⟨2, _⟩ => ⟨S1x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S_, .f32⟩
  | .hbm, ⟨7, _⟩ => ⟨S16x512, .f32⟩
  | .hbm, ⟨8, _⟩ => ⟨S16x512, .f32⟩
  | .hbm, ⟨9, _⟩ => ⟨S_, .f32⟩
  | .hbm, ⟨10, _⟩ => ⟨S16x512, .f32⟩
  | .hbm, ⟨11, _⟩ => ⟨S16x512, .f32⟩
  | .hbm, ⟨12, _⟩ => ⟨S16x512, .f32⟩
  | .hbm, ⟨13, _⟩ => ⟨S16x512, .f32⟩
  | .hbm, ⟨14, _⟩ => ⟨S16x512, .i1⟩
  | .hbm, ⟨15, _⟩ => ⟨S16x512, .f32⟩
  | .hbm, ⟨16, _⟩ => ⟨S16x512, .f32⟩
  | .hbm, ⟨17, _⟩ => ⟨S16x512, .f32⟩
  | .hbm, ⟨18, _⟩ => ⟨S16x512, .f32⟩
  | .hbm, ⟨19, _⟩ => ⟨S16x512, .f32⟩
  | .hbm, ⟨20, _⟩ => ⟨S16x512, .f32⟩
  | .hbm, ⟨21, _⟩ => ⟨S16x512, .f32⟩
  | .hbm, ⟨22, _⟩ => ⟨S16x512, .f32⟩
  | .hbm, ⟨23, _⟩ => ⟨S_, .f32⟩
  | .hbm, ⟨24, _⟩ => ⟨S16x512, .f32⟩
  | .hbm, ⟨25, _⟩ => ⟨S16x512, .f32⟩
  | .hbm, ⟨26, _⟩ => ⟨S_, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S_, .f32⟩
  | .hbm, ⟨31, _⟩ => ⟨S16, .f32⟩
  | .hbm, ⟨32, _⟩ => ⟨S16x1, .f32⟩
  | .hbm, ⟨33, _⟩ => ⟨S16x512, .f32⟩
  | .hbm, ⟨34, _⟩ => ⟨S16x512, .f32⟩
  | .hbm, ⟨35, _⟩ => ⟨S_, .f32⟩
  | .hbm, ⟨36, _⟩ => ⟨S16x512, .f32⟩
  | .hbm, ⟨37, _⟩ => ⟨S16x512, .f32⟩
  | .hbm, ⟨38, _⟩ => ⟨S16x512, .f32⟩
  | .hbm, ⟨39, _⟩ => ⟨S_, .f32⟩
  | .hbm, ⟨40, _⟩ => ⟨S16, .f32⟩
  | .hbm, ⟨41, _⟩ => ⟨S16x1, .f32⟩
  | .hbm, ⟨42, _⟩ => ⟨S_, .f32⟩
  | .hbm, ⟨43, _⟩ => ⟨S16x1, .f32⟩
  | .hbm, ⟨44, _⟩ => ⟨S16x1, .f32⟩
  | .hbm, ⟨45, _⟩ => ⟨S_, .f32⟩
  | .hbm, ⟨46, _⟩ => ⟨S16x1, .f32⟩
  | .hbm, ⟨47, _⟩ => ⟨S16x1, .f32⟩
  | .hbm, ⟨48, _⟩ => ⟨S_, .f32⟩
  | .hbm, ⟨49, _⟩ => ⟨S16x1, .f32⟩
  | .hbm, ⟨50, _⟩ => ⟨S16x1, .f32⟩
  | .hbm, ⟨51, _⟩ => ⟨S_, .f32⟩
  | .hbm, ⟨52, _⟩ => ⟨S16x1, .f32⟩
  | .hbm, ⟨53, _⟩ => ⟨S16x1, .f32⟩
  | .hbm, ⟨54, _⟩ => ⟨S_, .f32⟩
  | .hbm, ⟨55, _⟩ => ⟨S16x1, .f32⟩
  | .hbm, ⟨56, _⟩ => ⟨S16x1, .i1⟩
  | .hbm, ⟨57, _⟩ => ⟨S16x1, .f32⟩
  | .hbm, ⟨58, _⟩ => ⟨S16x512, .f32⟩
  | .hbm, ⟨59, _⟩ => ⟨S16x512, .f32⟩
  | .hbm, ⟨60, _⟩ => ⟨S16x512, .f32⟩
  | .hbm, ⟨61, _⟩ => ⟨S16x512, .f32⟩
  | .hbm, ⟨62, _⟩ => ⟨S_, .f32⟩
  | .hbm, ⟨63, _⟩ => ⟨S16x1, .f32⟩
  | .hbm, ⟨64, _⟩ => ⟨S16x1, .f32⟩
  | .hbm, ⟨65, _⟩ => ⟨S_, .f32⟩
  | .hbm, ⟨66, _⟩ => ⟨S16x512, .f32⟩
  | .hbm, ⟨67, _⟩ => ⟨S16x512, .f32⟩
  | .hbm, ⟨68, _⟩ => ⟨S16x512, .f32⟩
  | .hbm, ⟨69, _⟩ => ⟨S16x512, .f32⟩
  | .hbm, ⟨70, _⟩ => ⟨S_, .f32⟩
  | .hbm, ⟨71, _⟩ => ⟨S16x512, .f32⟩
  | .hbm, ⟨72, _⟩ => ⟨S16x512, .f32⟩
  | .hbm, ⟨73, _⟩ => ⟨S16x512, .f32⟩
  | .hbm, ⟨74, _⟩ => ⟨S16x512, .f32⟩
  | .hbm, ⟨75, _⟩ => ⟨S16x512, .f32⟩
  | .hbm, ⟨76, _⟩ => ⟨S_, .f32⟩
  | .hbm, ⟨77, _⟩ => ⟨S16x512, .f32⟩
  | .hbm, ⟨78, _⟩ => ⟨S16x512, .i1⟩
  | .hbm, ⟨79, _⟩ => ⟨S16x512, .f32⟩
  | .hbm, ⟨80, _⟩ => ⟨S16x512, .i1⟩
  | .hbm, ⟨81, _⟩ => ⟨S16x512, .f32⟩
  | .hbm, ⟨82, _⟩ => ⟨S16x1x1x512x1, .f32⟩
  | .hbm, ⟨83, _⟩ => ⟨S16x1x1x512x1, .f32⟩
  | .hbm, ⟨84, _⟩ => ⟨S16x1x1x512x1, .f32⟩
  | .hbm, ⟨85, _⟩ => ⟨S16x8x512x512x2, .f32⟩
  | .hbm, ⟨86, _⟩ => ⟨S16x8x512x512x2, .f32⟩
  | .hbm, ⟨87, _⟩ => ⟨S_, .f32⟩
  | .hbm, ⟨88, _⟩ => ⟨S16x8x512x512x2, .f32⟩
  | .hbm, ⟨89, _⟩ => ⟨S16x8x512x512x2, .i1⟩
  | .hbm, ⟨90, _⟩ => ⟨S_, .f32⟩
  | .hbm, ⟨91, _⟩ => ⟨S16x1x1x512x1, .f32⟩
  | .hbm, ⟨92, _⟩ => ⟨S16x1x1x512x1, .i1⟩
  | .hbm, ⟨93, _⟩ => ⟨S16x8x512x512x2, .i1⟩
  | .hbm, ⟨94, _⟩ => ⟨S16x8x512x512x2, .i1⟩
  | .hbm, ⟨95, _⟩ => ⟨S_, .f32⟩
  | .hbm, ⟨96, _⟩ => ⟨S_, .f32⟩
  | .hbm, ⟨97, _⟩ => ⟨S16x8x512x512x2, .f32⟩
  | .hbm, ⟨98, _⟩ => ⟨S16x8x512x512x2, .f32⟩
  | .hbm, ⟨99, _⟩ => ⟨S16x8x512x512x2, .f32⟩
  | .hbm, ⟨100, _⟩ => ⟨S16x8x512x512x2, .f32⟩
  | .hbm, ⟨101, _⟩ => ⟨S16x8x512x512x2, .f32⟩
  | _, _ => ⟨S16x1x1x512x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_cst_5 : Ref sig .tc := ⟨.hbm, 42, rfl⟩
abbrev main_v19 : Ref sig .tc := ⟨.hbm, 43, rfl⟩
abbrev main_v20 : Ref sig .tc := ⟨.hbm, 44, rfl⟩
abbrev main_cst_6 : Ref sig .tc := ⟨.hbm, 45, rfl⟩
abbrev main_v21 : Ref sig .tc := ⟨.hbm, 46, rfl⟩
abbrev main_v22 : Ref sig .tc := ⟨.hbm, 47, rfl⟩
abbrev main_cst_7 : Ref sig .tc := ⟨.hbm, 48, rfl⟩
abbrev main_v23 : Ref sig .tc := ⟨.hbm, 49, rfl⟩
abbrev main_v24 : Ref sig .tc := ⟨.hbm, 50, rfl⟩
abbrev main_cst_8 : Ref sig .tc := ⟨.hbm, 51, rfl⟩
abbrev main_v25 : Ref sig .tc := ⟨.hbm, 52, rfl⟩
abbrev main_v26 : Ref sig .tc := ⟨.hbm, 53, rfl⟩
abbrev main_cst_9 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_10 : Ref sig .tc := ⟨.hbm, 62, rfl⟩
abbrev main_v34 : Ref sig .tc := ⟨.hbm, 63, rfl⟩
abbrev main_v35 : Ref sig .tc := ⟨.hbm, 64, rfl⟩
abbrev main_cst_11 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_12 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_13 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_v56 : Ref sig .tc := ⟨.hbm, 89, rfl⟩
abbrev main_cst_15 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_16 : Ref sig .tc := ⟨.hbm, 95, rfl⟩
abbrev main_cst_17 : Ref sig .tc := ⟨.hbm, 96, rfl⟩
abbrev main_call2_v0 : Ref sig .tc := ⟨.hbm, 97, rfl⟩
abbrev main_call2_v1 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩

abbrev nD : Nat := 1
abbrev τ : Topo := Topo.v7x

variable {F : FTy → Type} [FloatOps F]

class Facts₀ : Prop where
  bcast_S1x512_S16x512_0_1 : S1x512.BroadcastsInDim S16x512 (![0, 1] : Fin 2 → Fin S16x512.rank)
  shapeCasts_S16x1x1x512x1_S16x512 : S16x1x1x512x1.ShapeCasts S16x512
  bcast_S_S16x512 : S_.BroadcastsInDim S16x512 (![] : Fin 0 → Fin S16x512.rank)
  reducesTo_S16x512_S16_d1 : S16x512.ReducesTo [1] S16
  h_S_ : 0 < S_.numel
  bcast_S16_S16x1_0 : S16.BroadcastsInDim S16x1 (![0] : Fin 1 → Fin S16x1.rank)
  bcast_S16x1_S16x512_0_1 : S16x1.BroadcastsInDim S16x512 (![0, 1] : Fin 2 → Fin S16x512.rank)
  bcast_S_S16x1 : S_.BroadcastsInDim S16x1 (![] : Fin 0 → Fin S16x1.rank)
  shapeCasts_S16x512_S16x1x1x512x1 : S16x512.ShapeCasts S16x1x1x512x1
  bcast_S16x1x1x512x1_S16x8x512x512x2_0_1_2_3_4 : S16x1x1x512x1.BroadcastsInDim S16x8x512x512x2 (![0, 1, 2, 3, 4] : Fin 5 → Fin S16x8x512x512x2.rank)
  bcast_S_S16x8x512x512x2 : S_.BroadcastsInDim S16x8x512x512x2 (![] : Fin 0 → Fin S16x8x512x512x2.rank)
  bcast_S_S16x1x1x512x1 : S_.BroadcastsInDim S16x1x1x512x1 (![] : Fin 0 → Fin S16x1x1x512x1.rank)

variable [Facts₀]

class Facts : Prop extends Facts₀ where

variable [Facts]
-- ==== Proof.KernelArrays.lean ====
/-
  The buffer contents at the boundaries of the two kernel regions, read back to the launch memory.
  The program is: reshape the mask to [16, 512]; the sampling kernel (one point, whole arrays) writes the
  probabilities and the new mask; the k-space tensor is re-laid [16,8,512,512,2] → [16,8,512,2,512] → [16,8,1024,512]
  and the new mask reshaped to [16,1,512]; the masking kernel multiplies block by block; the product is laid back
  and the two [16, 512] results are reshaped to [16,1,1,512,1].
-/
import proofs.«118718_g5669356833984_cont_9to1c4b_606_6_alg».proof.Proof.Gen.KernelIdeal.Frame
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The sampling kernel finds the mask reshaped to [16, 512]. -/
theorem V1_v0 (c : Dev nD) :
    V1 m ρ c main_v0 = shapeCast _ (m ((c : Thread nD τ).loc main_arg0)) shapeCasts_S16x1x1x512x1_S16x512 := by
  show StableHlo.after hostOps0 (W0 m ρ c) (Proc.devRef .tc main_v0) = _
  after_results
  rfl

/-- It finds the sampler parameters and the uniform draws as launched. -/
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results

/-- What the sampling kernel leaves in its two result arrays: the probabilities (window 3) and the new mask (window 4). -/
abbrev probsArr (c : Dev nD) := (dat0 (V1 m ρ) c).arrAt 3 cfg0.N
abbrev nmArr (c : Dev nD) := (dat0 (V1 m ρ) c).arrAt 4 cfg0.N

theorem W2_v1_0 (c : Dev nD) : W2 m ρ c (Proc.devRef .tc main_v1_0) = (dat0 (V1 m ρ) c).arrAt 3 cfg0.N := W2_arr m ρ c 3
theorem W2_v1_1 (c : Dev nD) : W2 m ρ c (Proc.devRef .tc main_v1_1) = (dat0 (V1 m ρ) c).arrAt 4 cfg0.N := W2_arr m ρ c 4

/-- The k-space tensor is still as launched when the first region is left. -/
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)

/-- The masking kernel finds the k-space tensor with its last two axes exchanged and the row and complex axes merged, -/
theorem V3_v3 (c : Dev nD) :
    V3 m ρ c main_v3 = shapeCast _ (transpose S16x8x512x2x512 [0, 1, 2, 4, 3] (m ((c : Thread nD τ).loc main_arg1)) transposes_S16x8x512x512x2_S16x8x512x2x512_0_1_2_4_3) shapeCasts_S16x8x512x2x512_S16x8x1024x512 := by
  show StableHlo.after hostOps1 (W2 m ρ c) (Proc.devRef .tc main_v3) = _
  after_results
  rw [W2_arg1]
  rfl

/-- and the new mask reshaped to [16, 1, 512]. -/
theorem V3_v4 (c : Dev nD) :
    V3 m ρ c main_v4 = shapeCast _ ((dat0 (V1 m ρ) c).arrAt 4 cfg0.N) shapeCasts_S16x512_S16x1x512 := by
  show StableHlo.after hostOps1 (W2 m ρ c) (Proc.devRef .tc main_v4) = _
  after_results
  rw [W2_v1_1]
  rfl

/-- The sampling kernel's two results are untouched by everything after it. -/
theorem W4_v1_1 (c : Dev nD) : W4 m ρ c (Proc.devRef .tc main_v1_1) = (dat0 (V1 m ρ) c).arrAt 4 cfg0.N :=
  (W4_of_ne m ρ c main_v1_1 (by decide)).trans (by
    show StableHlo.after hostOps1 (W2 m ρ c) (Proc.devRef .tc main_v1_1) = _
    after_results
    exact W2_v1_1 m ρ c)
theorem W4_v1_0 (c : Dev nD) : W4 m ρ c (Proc.devRef .tc main_v1_0) = (dat0 (V1 m ρ) c).arrAt 3 cfg0.N :=
  (W4_of_ne m ρ c main_v1_0 (by decide)).trans (by
    show StableHlo.after hostOps1 (W2 m ρ c) (Proc.devRef .tc main_v1_0) = _
    after_results
    exact W2_v1_0 m ρ c)
theorem W4_v5 (c : Dev nD) : W4 m ρ c (Proc.devRef .tc main_v5) = (dat1 (V3 m ρ) c).arrAt 2 cfg1.N := W4_arr m ρ c 2

/-- THE THREE RESULTS after the run. The new mask: -/
theorem W5_v8 (c : Dev nD) :
    W5 m ρ c (Proc.devRef .tc main_v8) = shapeCast _ ((dat0 (V1 m ρ) c).arrAt 4 cfg0.N) shapeCasts_S16x512_S16x1x1x512x1 := by
  show StableHlo.after hostOps2 (W4 m ρ c) (Proc.devRef .tc main_v8) = _
  after_results
  rw [W4_v1_1]
  rfl
/-- the probabilities: -/
theorem W5_v9 (c : Dev nD) :
    W5 m ρ c (Proc.devRef .tc main_v9) = shapeCast _ ((dat0 (V1 m ρ) c).arrAt 3 cfg0.N) shapeCasts_S16x512_S16x1x1x512x1 := by
  show StableHlo.after hostOps2 (W4 m ρ c) (Proc.devRef .tc main_v9) = _
  after_results
  rw [W4_v1_0]
  rfl
/-- the masked k-space tensor, laid back: -/
theorem W5_v7 (c : Dev nD) :
    W5 m ρ c (Proc.devRef .tc main_v7) = transpose S16x8x512x512x2 [0, 1, 2, 4, 3] (shapeCast _ ((dat1 (V3 m ρ) c).arrAt 2 cfg1.N) shapeCasts_S16x8x1024x512_S16x8x512x2x512) transposes_S16x8x512x2x512_S16x8x512x512x2_0_1_2_4_3 := by
  show StableHlo.after hostOps2 (W4 m ρ c) (Proc.devRef .tc main_v7) = _
  after_results
  rw [W4_v5]
  rfl

end Cert.KernelIdeal.Arrays

end
-- ==== Proof.SampleArrays.lean ====
/-
  The sampling kernel's two result arrays. The kernel has one grid point and every window is its whole array, so a
  window's block IS its array, and what the one point writes back is the body's result of the three input arrays:
  the probabilities are `out0_3` and the new mask `out0_4` of the mask (reshaped), the sampler parameters and the
  uniform draws as the region finds them.
-/
import proofs.«118718_g5669356833984_cont_9to1c4b_606_6_alg».proof.Proof.Gen.KernelIdeal.Frame
import Idealize.ShloMosaic.Lib.Pipeline.Value

set_option maxRecDepth 16384

noncomputable section

namespace Cert.KernelIdeal.Sample

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- An index of a [16, 512] block of a whole-array window, embedded in the array, is itself. -/
theorem emb0 (t : Fin cfg0.N) (y : S16x512.Idx) : ((cfg0.win 0).blk t).view.emb y = y := by
  funext a; apply Fin.ext
  match a with
  | ⟨0, _⟩ => show win0_0.index t (0 : Fin 2) * 16 + 1 * (y 0).val = (y 0).val; show 0 * 16 + 1 * (y 0).val = (y 0).val; omega
  | ⟨1, _⟩ => show win0_0.index t (1 : Fin 2) * 512 + 1 * (y 1).val = (y 1).val; show 0 * 512 + 1 * (y 1).val = (y 1).val; omega

theorem emb1 (t : Fin cfg0.N) (y : S1x512.Idx) : ((cfg0.win 1).blk t).view.emb y = y := by
  funext a; apply Fin.ext
  match a with
  | ⟨0, _⟩ => show win0_1.index t (0 : Fin 2) * 1 + 1 * (y 0).val = (y 0).val; show 0 * 1 + 1 * (y 0).val = (y 0).val; omega
  | ⟨1, _⟩ => show win0_1.index t (1 : Fin 2) * 512 + 1 * (y 1).val = (y 1).val; show 0 * 512 + 1 * (y 1).val = (y 1).val; omega
theorem emb2 (t : Fin cfg0.N) (y : S16x512.Idx) : ((cfg0.win 2).blk t).view.emb y = y := by
  funext a; apply Fin.ext
  match a with
  | ⟨0, _⟩ => show win0_2.index t (0 : Fin 2) * 16 + 1 * (y 0).val = (y 0).val; show 0 * 16 + 1 * (y 0).val = (y 0).val; omega
  | ⟨1, _⟩ => show win0_2.index t (1 : Fin 2) * 512 + 1 * (y 1).val = (y 1).val; show 0 * 512 + 1 * (y 1).val = (y 1).val; omega
theorem emb3 (t : Fin cfg0.N) (y : S16x512.Idx) : ((cfg0.win 3).blk t).view.emb y = y := by
  funext a; apply Fin.ext
  match a with
  | ⟨0, _⟩ => show win0_3.index t (0 : Fin 2) * 16 + 1 * (y 0).val = (y 0).val; show 0 * 16 + 1 * (y 0).val = (y 0).val; omega
  | ⟨1, _⟩ => show win0_3.index t (1 : Fin 2) * 512 + 1 * (y 1).val = (y 1).val; show 0 * 512 + 1 * (y 1).val = (y 1).val; omega
theorem emb4 (t : Fin cfg0.N) (y : S16x512.Idx) : ((cfg0.win 4).blk t).view.emb y = y := by
  funext a; apply Fin.ext
  match a with
  | ⟨0, _⟩ => show win0_4.index t (0 : Fin 2) * 16 + 1 * (y 0).val = (y 0).val; show 0 * 16 + 1 * (y 0).val = (y 0).val; omega
  | ⟨1, _⟩ => show win0_4.index t (1 : Fin 2) * 512 + 1 * (y 1).val = (y 1).val; show 0 * 512 + 1 * (y 1).val = (y 1).val; omega

/-- Each input window's block at the point is its array as the region finds it. -/
theorem iblk0_0 (c : Dev nD) (t : Fin cfg0.N) : iblk0 V c 0 t = V c main_v0 := by
  funext y
  show V c main_v0 (((cfg0.win 0).blk t).view.emb y) = V c main_v0 y
  rw [emb0]
theorem iblk0_1 (c : Dev nD) (t : Fin cfg0.N) : iblk0 V c 1 t = V c main_arg2 := by
  funext y
  show V c main_arg2 (((cfg0.win 1).blk t).view.emb y) = V c main_arg2 y
  rw [emb1]
theorem iblk0_2 (c : Dev nD) (t : Fin cfg0.N) : iblk0 V c 2 t = V c main_arg3 := by
  funext y
  show V c main_arg3 (((cfg0.win 2).blk t).view.emb y) = V c main_arg3 y
  rw [emb2]

/-- A staging buffer's contents cut to the window's block are those contents read through the block: both are the
    contents themselves (the window is not cut and its block is the whole array). -/
theorem cut_read3 (t : Fin cfg0.N) (G : Vec F S16x512 .f32) :
    (cfg0.win 3).cut (grid0.coords t) G = ((cfg0.win 3).blk t).view.read (Elt F) G := by
  funext y
  show G y = G (((cfg0.win 3).blk t).view.emb y)
  rw [emb3]
theorem cut_read4 (t : Fin cfg0.N) (G : Vec F S16x512 .f32) :
    (cfg0.win 4).cut (grid0.coords t) G = ((cfg0.win 4).blk t).view.read (Elt F) G := by
  funext y
  show G y = G (((cfg0.win 4).blk t).view.emb y)
  rw [emb4]

/-- What the point writes back to the probabilities' array is the body's result, whole. -/
theorem flushed3_eq (c : Dev nD) (t : Fin cfg0.N) :
    (dat0 V c).flushed 3 t = ((cfg0.win 3).blk t).view.read (Elt F) (out0_3 (V c main_v0) (V c main_arg2) (V c main_arg3)) := by
  show (cfg0.win 3).cut (grid0.coords t) ((dat0 V c).after 3 t) = _
  rw [after0_3, iblk0_0, iblk0_1, iblk0_2]
  exact cut_read3 t _
theorem flushed4_eq (c : Dev nD) (t : Fin cfg0.N) :
    (dat0 V c).flushed 4 t = ((cfg0.win 4).blk t).view.read (Elt F) (out0_4 (V c main_v0) (V c main_arg2) (V c main_arg3)) := by
  show (cfg0.win 4).cut (grid0.coords t) ((dat0 V c).after 4 t) = _
  rw [after0_4, iblk0_0, iblk0_1, iblk0_2]
  exact cut_read4 t _

/-- Every index of a result array is in the one point's block. -/
theorem mem_blk3 (t : Fin cfg0.N) (i : S16x512.Idx) : i ∈ ((cfg0.win 3).blk t).view.set := by
  show i ∈ ((View.whole main_v1_0).slice (win0_3.rect t)).set
  rw [View.set_slice_whole, Rect.mem_set_unit]
  intro a
  match a with
  | ⟨0, _⟩ => show win0_3.index t (0 : Fin 2) * 16 ≤ (i 0).val ∧ (i 0).val < win0_3.index t (0 : Fin 2) * 16 + 16; show 0 * 16 ≤ (i 0).val ∧ (i 0).val < 0 * 16 + 16; have h0 : (i 0).val < 16 := (i 0).isLt; omega
  | ⟨1, _⟩ => show win0_3.index t (1 : Fin 2) * 512 ≤ (i 1).val ∧ (i 1).val < win0_3.index t (1 : Fin 2) * 512 + 512; show 0 * 512 ≤ (i 1).val ∧ (i 1).val < 0 * 512 + 512; have h1 : (i 1).val < 512 := (i 1).isLt; omega
theorem mem_blk4 (t : Fin cfg0.N) (i : S16x512.Idx) : i ∈ ((cfg0.win 4).blk t).view.set := by
  show i ∈ ((View.whole main_v1_1).slice (win0_4.rect t)).set
  rw [View.set_slice_whole, Rect.mem_set_unit]
  intro a
  match a with
  | ⟨0, _⟩ => show win0_4.index t (0 : Fin 2) * 16 ≤ (i 0).val ∧ (i 0).val < win0_4.index t (0 : Fin 2) * 16 + 16; show 0 * 16 ≤ (i 0).val ∧ (i 0).val < 0 * 16 + 16; have h0 : (i 0).val < 16 := (i 0).isLt; omega
  | ⟨1, _⟩ => show win0_4.index t (1 : Fin 2) * 512 ≤ (i 1).val ∧ (i 1).val < win0_4.index t (1 : Fin 2) * 512 + 512; show 0 * 512 ≤ (i 1).val ∧ (i 1).val < 0 * 512 + 512; have h1 : (i 1).val < 512 := (i 1).isLt; omega

/-- THE PROBABILITIES' ARRAY after the region. -/
theorem probs_arr (c : Dev nD) :
    (dat0 V c).arrAt 3 cfg0.N = out0_3 (V c main_v0) (V c main_arg2) (V c main_arg3) :=
  (dat0 V c).arrAt_eq_of_cover 3 _ (fun t _ => flushed3_eq V c t) (fun i => ⟨t0_0, flush0_3 t0_0, mem_blk3 t0_0 i⟩)
/-- THE NEW MASK'S ARRAY after the region. -/
theorem nm_arr (c : Dev nD) :
    (dat0 V c).arrAt 4 cfg0.N = out0_4 (V c main_v0) (V c main_arg2) (V c main_arg3) :=
  (dat0 V c).arrAt_eq_of_cover 4 _ (fun t _ => flushed4_eq V c t) (fun i => ⟨t0_0, flush0_4 t0_0, mem_blk4 t0_0 i⟩)

end Cert.KernelIdeal.Sample

end
-- ==== Proof.MaskArrays.lean ====
/-
  The masking kernel's result array. The grid is 16 × 8; point (b, k) multiplies the [1024, 512] block (b, k) of the
  re-laid k-space tensor by row b of the new mask, broadcast down the 1024 rows. The blocks tile the array, so it ends
  holding, at (b, k, r, w), the tensor's entry there times the mask's entry (b, 0, w).
-/
import proofs.«118718_g5669356833984_cont_9to1c4b_606_6_alg».proof.Proof.Gen.KernelIdeal.Frame
import Idealize.ShloMosaic.Lib.Pipeline.Value

set_option maxRecDepth 16384

noncomputable section

namespace Cert.KernelIdeal.Mask

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The mask's index (b, 0, w) under an index (b, k, r, w) of the re-laid tensor. -/
abbrev rowIdx (i : S16x8x1024x512.Idx) : S16x1x512.Idx := fun a => match a with
  | ⟨0, _⟩ => ⟨(i 0).val, (i 0).isLt⟩
  | ⟨1, _⟩ => ⟨0, Nat.one_pos⟩
  | ⟨2, _⟩ => ⟨(i 3).val, (i 3).isLt⟩

/-- What the result array ends holding: the tensor times the mask's row, index by index. -/
abbrev prod (nm3 : S16x1x512.Idx → Elt F .f32) (x3 : S16x8x1024x512.Idx → Elt F .f32) : S16x8x1024x512.Idx → Elt F .f32 :=
  fun i => FloatOps.mulf (x3 i) (nm3 (rowIdx i))

/-- The mask block's index (0, 0, w) under a block index (0, 0, r, w). -/
abbrev lane (j : S1x1x1024x512.Idx) : S1x1x512.Idx := fun a => match a with
  | ⟨0, _⟩ => ⟨0, Nat.one_pos⟩
  | ⟨1, _⟩ => ⟨0, Nat.one_pos⟩
  | ⟨2, _⟩ => ⟨(j 3).val, (j 3).isLt⟩
/-- The same with a unit axis added: (0, 0, 0, w). -/
abbrev lane4 (j : S1x1x1024x512.Idx) : S1x1x1x512.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨(j 3).val, (j 3).isLt⟩

/-- The body's payload at a block index: the tensor block's entry times the mask block's entry in that lane. -/
theorem pay_apply (x1 : Vec F S1x1x1024x512 .f32) (x0 : Vec F S1x1x512 .f32) (j : S1x1x1024x512.Idx) :
    k1_pay1 x1 x0 j = FloatOps.mulf (x1 j) (x0 (lane j)) := by
  unfold k1_pay1
  show FloatOps.mulf (shapeCast S1x1x1024x512 x1 shapeCasts_S1x1x1024x512_S1x1x1024x512 j)
      (broadcastTo S1x1x1024x512 (shapeCast S1x1x1x512 (shapeCast S1x1x512 x0 shapeCasts_S1x1x512_S1x1x512) shapeCasts_S1x1x512_S1x1x1x512) broadcasts_S1x1x1x512_S1x1x1024x512 j) = _
  rw [shapeCast_self, shapeCast_self]
  rw [broadcastTo_apply _ broadcasts_S1x1x1x512_S1x1x1024x512 j (lane4 j) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show 0 = if (1 : Nat) = 1 then 0 else _; rw [if_pos rfl]
    | ⟨3, _⟩ => by show (j 3).val = if (512 : Nat) = 1 then 0 else (j 3).val; rw [if_neg (by decide)])]
  rw [shapeCast_apply x0 shapeCasts_S1x1x512_S1x1x1x512 (lane4 j) (lane j) (by
    rw [Shape.rowMajor_val_three, Shape.rowMajor_val_four]
    show ((0 * 1 + 0) * 512 + (j 3).val) = (((0 * 1 + 0) * 1 + 0) * 512 + (j 3).val)
    omega)]

/-- The printed index maps, decided over the 128 grid points: the mask's window follows the grid's first coordinate,
    the tensor's window is the output's, and the output's block index is (b, k, 0, 0) with b < 16, k < 8. -/
theorem idx_facts : ∀ t : Fin cfg1.N,
    win1_0.index t (0 : Fin 3) = win1_2.index t (0 : Fin 4) ∧ win1_0.index t (1 : Fin 3) = 0 ∧ win1_0.index t (2 : Fin 3) = 0
    ∧ win1_1.index t (0 : Fin 4) = win1_2.index t (0 : Fin 4) ∧ win1_1.index t (1 : Fin 4) = win1_2.index t (1 : Fin 4)
    ∧ win1_1.index t (2 : Fin 4) = win1_2.index t (2 : Fin 4) ∧ win1_1.index t (3 : Fin 4) = win1_2.index t (3 : Fin 4)
    ∧ win1_2.index t (0 : Fin 4) < 16 ∧ win1_2.index t (1 : Fin 4) < 8 ∧ win1_2.index t (2 : Fin 4) = 0 ∧ win1_2.index t (3 : Fin 4) = 0 :=
  (by decide +kernel : ∀ t : Fin grid1.N, _)

/-- Every block (b, k) is some point's. -/
theorem idx_onto : ∀ (q0 : Fin 16) (q1 : Fin 8), ∃ t : Fin cfg1.N, win1_2.index t = ![q0.val, q1.val, 0, 0] :=
  (by decide +kernel : ∀ (q0 : Fin 16) (q1 : Fin 8), ∃ t : Fin grid1.N, win1_2.index t = ![q0.val, q1.val, 0, 0])

/-- WHAT POINT `t` WRITES BACK is block `t` of the product of the two arrays the region finds. -/
theorem flushed2_eq (c : Dev nD) (t : Fin cfg1.N) :
    (dat1 V c).flushed 2 t = ((cfg1.win 2).blk t).view.read (Elt F) (prod (V c main_v4) (V c main_v3)) := by
  show (cfg1.win 2).cut (grid1.coords t) ((dat1 V c).after 2 t) = _
  rw [after1_2]
  unfold out1_2
  rw [View.canon_unit_zero hz4]
  simp only [View.ld_unit_zero (S := S1x1x1024x512) hz4, View.ld_unit_zero (S := S1x1x512) hz3]
  obtain ⟨e0, e1, e2, f0, f1, f2, f3, b0, b1, z2, z3⟩ := idx_facts t
  funext j
  refine (pay_apply (iblk1 V c 1 t) (iblk1 V c 0 t) j).trans ?_
  show FloatOps.mulf (V c main_v3 (((cfg1.win 1).blk t).view.emb j)) (V c main_v4 (((cfg1.win 0).blk t).view.emb (lane j)))
    = FloatOps.mulf (V c main_v3 (((cfg1.win 2).blk t).view.emb j)) (V c main_v4 (rowIdx (((cfg1.win 2).blk t).view.emb j)))
  have h1 : ((cfg1.win 1).blk t).view.emb j = ((cfg1.win 2).blk t).view.emb j := by
    funext a; apply Fin.ext
    match a with
    | ⟨0, _⟩ => show win1_1.index t (0 : Fin 4) * 1 + 1 * (j 0).val = win1_2.index t (0 : Fin 4) * 1 + 1 * (j 0).val; omega
    | ⟨1, _⟩ => show win1_1.index t (1 : Fin 4) * 1 + 1 * (j 1).val = win1_2.index t (1 : Fin 4) * 1 + 1 * (j 1).val; omega
    | ⟨2, _⟩ => show win1_1.index t (2 : Fin 4) * 1024 + 1 * (j 2).val = win1_2.index t (2 : Fin 4) * 1024 + 1 * (j 2).val; omega
    | ⟨3, _⟩ => show win1_1.index t (3 : Fin 4) * 512 + 1 * (j 3).val = win1_2.index t (3 : Fin 4) * 512 + 1 * (j 3).val; omega
  have h0 : ((cfg1.win 0).blk t).view.emb (lane j) = rowIdx (((cfg1.win 2).blk t).view.emb j) := by
    funext a; apply Fin.ext
    match a with
    | ⟨0, _⟩ => show win1_0.index t (0 : Fin 3) * 1 + 1 * 0 = win1_2.index t (0 : Fin 4) * 1 + 1 * (j 0).val; have hj : (j 0).val < 1 := (j 0).isLt; omega
    | ⟨1, _⟩ => show win1_0.index t (1 : Fin 3) * 1 + 1 * 0 = 0; omega
    | ⟨2, _⟩ => show win1_0.index t (2 : Fin 3) * 512 + 1 * (j 3).val = win1_2.index t (3 : Fin 4) * 512 + 1 * (j 3).val; omega
  rw [h1, h0]

/-- An index of the array is in point `t`'s block iff each coordinate is in the block's range on its axis. -/
theorem mem_blk (t : Fin cfg1.N) (i : S16x8x1024x512.Idx) :
    i ∈ ((cfg1.win 2).blk t).view.set ↔ ∀ a : Fin 4, win1_2.index t a * S1x1x1024x512.size a ≤ (i a).val ∧ (i a).val < win1_2.index t a * S1x1x1024x512.size a + S1x1x1024x512.size a := by
  show i ∈ ((View.whole main_v5).slice (win1_2.rect t)).set ↔ _
  rw [View.set_slice_whole, Rect.mem_set_unit]
  exact Iff.rfl

/-- The blocks tile the array: index (b, k, r, w) is in the block of the point whose block index is (b, k, 0, 0). -/
theorem cover (i : S16x8x1024x512.Idx) : ∃ t : Fin cfg1.N, (cfg1.win 2).flush t = true ∧ i ∈ ((cfg1.win 2).blk t).view.set := by
  have hi0 : (i 0).val < 16 := (i 0).isLt
  have hi1 : (i 1).val < 8 := (i 1).isLt
  have hi2 : (i 2).val < 1024 := (i 2).isLt
  have hi3 : (i 3).val < 512 := (i 3).isLt
  obtain ⟨t, ht⟩ := idx_onto ⟨(i 0).val, hi0⟩ ⟨(i 1).val, hi1⟩
  have q0 : win1_2.index t (0 : Fin 4) = (i 0).val := congrFun ht 0
  have q1 : win1_2.index t (1 : Fin 4) = (i 1).val := congrFun ht 1
  have q2 : win1_2.index t (2 : Fin 4) = 0 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 1 ≤ (i 1).val ∧ (i 1).val < win1_2.index t (1 : Fin 4) * 1 + 1; omega
  | ⟨2, _⟩ => show win1_2.index t (2 : Fin 4) * 1024 ≤ (i 2).val ∧ (i 2).val < win1_2.index t (2 : Fin 4) * 1024 + 1024; omega
  | ⟨3, _⟩ => show win1_2.index t (3 : Fin 4) * 512 ≤ (i 3).val ∧ (i 3).val < win1_2.index t (3 : Fin 4) * 512 + 512; omega

/-- THE RESULT ARRAY after the region: the re-laid tensor times the mask's row, index by index. -/
theorem prod_arr (c : Dev nD) : (dat1 V c).arrAt 2 cfg1.N = prod (V c main_v4) (V c main_v3) :=
  (dat1 V c).arrAt_eq_of_cover 2 _ (fun t _ => flushed2_eq V c t) cover

end Cert.KernelIdeal.Mask

end
-- ==== Proof.SampleStages.lean ====
/-
  The sampling kernel's arithmetic is the reference's, stage by stage, over the extended reals.
  Both compute, for a mask M [16, 512], sampler parameters s [1, 512] and uniform draws u [16, 512]:
    p  = softplus(10 s) / 10  with softplus(x) = max(x, 0) + log1p(exp(-|x|)) (the test x ≠ x never fires),
    q  = p / max_w((1 - M) p),   x = q (1 - M),   mean = (Σ_w x) / 512,
    r  = 0.25 / mean,   β = 0.75 / (1 - mean),   le = [r ≤ 1],
    y  = le x r + (1 - le)(1 - (1 - x) β),   probs = y where M = 0, x elsewhere,
    new mask = M + [probs > u].
  The kernel spells its broadcasts, casts and reductions with vector operations and the reference with host
  operations; here each kernel stage, applied to the reference's previous stages, is shown to be the reference's
  next stage, index by index.
-/
import proofs.«118718_g5669356833984_cont_9to1c4b_606_6_alg».proof.Proof.Gen.KernelIdeal.Skeleton
import proofs.«118718_g5669356833984_cont_9to1c4b_606_6_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.KernelIdeal.Stages

open Cert.KernelIdeal Cert.KernelIdeal.Gen Cert.ReferenceIdeal.Read Idealize.ShloMosaic Idealize.ShloMosaic.ValueIdx

/-! ## Layout operations of the kernel read at an index -/

/-- A [1, 512] row broadcast down 16 rows, at (b, w), is the row at (0, w). -/
theorem row_bcast {α : Type} (s : S1x512.Idx → α) (i : S16x512.Idx) :
    broadcastTo S16x512 s broadcasts_S1x512_S16x512 i = s (idx_main_v0 i) :=
  broadcastTo_apply s broadcasts_S1x512_S16x512 i (idx_main_v0 i) (fun a => match a with
    | ⟨0, _⟩ => by show 0 = if (1 : Nat) = 1 then 0 else _; rw [if_pos rfl]
    | ⟨1, _⟩ => by show (i 1).val = if (512 : Nat) = 1 then 0 else (i 1).val; rw [if_neg (by decide)])

/-- A [16, 1] column broadcast along 512 lanes, at (b, w), is the column at (b, 0). -/
theorem col_bcast {α : Type} (v : S16x1.Idx → α) (i : S16x512.Idx) :
    broadcastTo S16x512 v broadcasts_S16x1_S16x512 i = v (idx_main_v12 i) :=
  broadcastTo_apply v broadcasts_S16x1_S16x512 i (idx_main_v12 i) (fun a => match a with
    | ⟨0, _⟩ => by show (i 0).val = if (16 : Nat) = 1 then 0 else (i 0).val; rw [if_neg (by decide)]
    | ⟨1, _⟩ => by show 0 = if (1 : Nat) = 1 then 0 else _; rw [if_pos rfl])

/-- A [16] vector cast to a [16, 1] column, at (b, 0), is the vector at b. -/
theorem col_cast {α : Type} (r : S16.Idx → α) (i : S16x1.Idx) :
    shapeCast S16x1 r shapeCasts_S16_S16x1 i = r (idx_main_v11 i) :=
  shapeCast_apply r shapeCasts_S16_S16x1 i (idx_main_v11 i) (by
    rw [Shape.rowMajor_val_one, Shape.rowMajor_val_two]
    have h1 : (i 1).val < 1 := (i 1).isLt
    show (i 0).val = (i 0).val * 1 + (i 1).val
    omega)

/-! ## Scalar facts -/

/-- A comparison bit widened to a word and read signed is the bit read unsigned: 0 or 1. -/
theorem bit_real (b : BitVec 1) :
    FloatOps.sitofp (F := Ideal) .f32 (b.setWidth 32) = FloatOps.uitofp (F := Ideal) .f32 b := by
  show (((b.setWidth 32).toInt : ℝ) : EReal) = ((b.toNat : ℝ) : EReal)
  have h : ∀ b : BitVec 1, (b.setWidth 32).toInt = (b.toNat : Int) := by decide
  rw [h b]
  norm_cast

/-- Zero minus a value is its negation, on the extended reals. -/
theorem zero_sub_ereal (x : EReal) : (0 : EReal) - x = -x := by
  rw [sub_eq_add_neg, zero_add]

/-! ## The two row reductions: the kernel's and the reference's are one fold -/

/-- A row maximum from -∞: the kernel's lane reduction is the host's reduce, for any operand. -/
theorem rowmax_eq (x : FVec Ideal S16x512 .f32) (h' : Cert.ReferenceIdeal.S16x512.ReducesTo [1] Cert.ReferenceIdeal.S16)
    (hu : 0 < Cert.ReferenceIdeal.S_.numel) :
    multiReduction .maximumf [1] S16 x 0xFF800000#32 reduces_S16x512_S16 (.inl rfl) rfl
      = Host.reduce FloatOps.maximumf x (constant (F := Ideal) Cert.ReferenceIdeal.S_ .f32 0xFF800000#32) h' hu := by
  funext j
  refine (Ideal.multiReduction_maximumf_single x 0xFF800000#32 reduces_S16x512_S16 (.inl rfl) rfl j).trans ?_
  refine Eq.trans ?_ (Host.reduce_eq_fold_single FloatOps.maximumf x _ h' reduces_S16x512_S16 hu j).symm
  rfl

/-- A row sum from zero, at row b: the sum over the 512 lanes. -/
theorem rowsum_apply (x : FVec Ideal S16x512 .f32) (j : S16.Idx) :
    multiReduction .add [1] S16 x 0x00000000#32 reduces_S16x512_S16 (.inl rfl) rfl j = ∑ k : Fin 512, x (idx_main_v17 j k) := by
  refine (Ideal.multiReduction_add_single x 0x00000000#32 reduces_S16x512_S16 (.inl rfl) rfl j).trans ?_
  refine Finset.sum_congr rfl fun k _ => ?_
  exact congrArg x (funext fun a => Fin.ext (by match a with | ⟨0, _⟩ => rfl | ⟨1, _⟩ => rfl))

/-! ## The stages -/

/-- 10 · s, the sampler row broadcast down the batch. -/
theorem stage_v3 (s : FVec Ideal S1x512 .f32) :
    mulf (broadcast S16x512 (Scalar.ofBits (F := Ideal) .f32 0x41200000#32)) (broadcastTo S16x512 (shapeCast S1x512 s shapeCasts_S1x512_S1x512) broadcasts_S1x512_S16x512)
      = val_main_v3 (F := Ideal) s := by
  funext i
  rw [val_main_v3_apply, val_main_v2_apply, val_main_cst_apply, val_main_v0_apply, shapeCast_self]
  show Scalar.ofBits (F := Ideal) .f32 0x41200000#32 * broadcastTo S16x512 s broadcasts_S1x512_S16x512 i = _
  rw [row_bcast]
  rfl

/-- softplus(10 s): the kernel's `0 - |x|` is the reference's `-|x|`, and the two spellings of the test x ≠ x agree. -/
theorem stage_v4 (s : FVec Ideal S1x512 .f32) :
    select (cmpf .one (subf (val_main_v3 (F := Ideal) s) (broadcast S16x512 (Scalar.ofBits (F := Ideal) .f32 0x00000000#32))) (subf (val_main_v3 (F := Ideal) s) (broadcast S16x512 (Scalar.ofBits (F := Ideal) .f32 0x00000000#32))))
        (addf (val_main_v3 (F := Ideal) s) (broadcast S16x512 (Scalar.ofBits (F := Ideal) .f32 0x00000000#32)))
        (addf (maximumf (val_main_v3 (F := Ideal) s) (broadcast S16x512 (Scalar.ofBits (F := Ideal) .f32 0x00000000#32)))
          (log1p (exp (subf (broadcast S16x512 (Scalar.ofBits (F := Ideal) .f32 0x00000000#32)) (absf (subf (val_main_v3 (F := Ideal) s) (broadcast S16x512 (Scalar.ofBits (F := Ideal) .f32 0x00000000#32))))))))
      = val_main_v4 (F := Ideal) s := by
  funext i
  rw [val_main_v4_apply, val_main_call0_v4_apply, val_main_call0_v6_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_v5_apply, val_main_call0_cst_apply]
  generalize val_main_v3 (F := Ideal) s = X
  show Scalar.select (Ideal.cmp .one (X i - Ideal.ofBits .f32 0x00000000#32) (X i - Ideal.ofBits .f32 0x00000000#32)) (X i + Ideal.ofBits .f32 0x00000000#32)
      (max (X i) (Ideal.ofBits .f32 0x00000000#32) + Ideal.log1p (Ideal.exp (Ideal.ofBits .f32 0x00000000#32 - FloatOps.absf (F := Ideal) (φ := .f32) (X i - Ideal.ofBits .f32 0x00000000#32))))
    = Scalar.select (Ideal.cmp .une (X i - Ideal.ofBits .f32 0x00000000#32) (X i - Ideal.ofBits .f32 0x00000000#32)) (X i + Ideal.ofBits .f32 0x00000000#32)
      (max (X i) (Ideal.ofBits .f32 0x00000000#32) + Ideal.log1p (Ideal.exp (-(FloatOps.absf (F := Ideal) (φ := .f32) (X i - Ideal.ofBits .f32 0x00000000#32)))))
  rw [Ideal.ofBits_zero_f32, zero_sub_ereal]
  rfl

/-- p = softplus(10 s) / 10. -/
theorem stage_v6 (s : FVec Ideal S1x512 .f32) :
    divf (val_main_v4 (F := Ideal) s) (broadcast S16x512 (Scalar.ofBits (F := Ideal) .f32 0x41200000#32)) = val_main_v6 (F := Ideal) s := by
  funext i
  rw [val_main_v6_apply, val_main_v5_apply, val_main_cst_0_apply]
  rfl

/-- (1 - M) p. -/
theorem stage_v9 (a0 : FVec Ideal S16x1x1x512x1 .f32) (s : FVec Ideal S1x512 .f32) :
    mulf (subf (broadcast S16x512 (Scalar.ofBits (F := Ideal) .f32 0x3F800000#32)) (val_main_v1 (F := Ideal) a0)) (val_main_v6 (F := Ideal) s)
      = val_main_v9 (F := Ideal) a0 s := by
  funext i
  rw [val_main_v9_apply, val_main_v8_apply, val_main_v7_apply, val_main_cst_1_apply]
  rfl

/-- The row maximum of (1 - M) p, broadcast back over the row. -/
theorem stage_v12 (a0 : FVec Ideal S16x1x1x512x1 .f32) (s : FVec Ideal S1x512 .f32) :
    (broadcastTo S16x512 (shapeCast S16x1 (multiReduction (F := Ideal) .maximumf [1] S16 (val_main_v9 (F := Ideal) a0 s) 0xFF800000#32 reduces_S16x512_S16 (.inl rfl) rfl) shapeCasts_S16_S16x1) broadcasts_S16x1_S16x512 : FVec Ideal S16x512 .f32)
      = val_main_v12 (F := Ideal) a0 s := by
  funext i
  rw [val_main_v12_apply, val_main_v11_apply, col_bcast, col_cast, rowmax_eq]
  rfl

/-- x = (p / rowmax) (1 - M). -/
theorem stage_v16 (a0 : FVec Ideal S16x1x1x512x1 .f32) (s : FVec Ideal S1x512 .f32) :
    mulf (divf (val_main_v6 (F := Ideal) s) (val_main_v12 (F := Ideal) a0 s)) (subf (broadcast S16x512 (Scalar.ofBits (F := Ideal) .f32 0x3F800000#32)) (val_main_v1 (F := Ideal) a0))
      = val_main_v16 (F := Ideal) a0 s := by
  funext i
  rw [val_main_v16_apply, val_main_v13_apply, val_main_v15_apply, val_main_v14_apply, val_main_cst_3_apply]
  rfl

/-- The kernel's first payload is the identity cast of the mask block. -/
theorem pay3_eq (M : FVec Ideal S16x512 .f32) : k0_pay3 M = M := by
  unfold k0_pay3
  exact shapeCast_self M _

/-- THE KERNEL'S x IS THE REFERENCE'S: payload 4 over the reshaped mask and the sampler row. -/
theorem pay4_eq (a0 : FVec Ideal S16x1x1x512x1 .f32) (s : FVec Ideal S1x512 .f32) :
    k0_pay4 (val_main_v1 (F := Ideal) a0) s = val_main_v16 (F := Ideal) a0 s := by
  unfold k0_pay4
  dsimp only
  rw [pay3_eq, stage_v3, stage_v4, stage_v6, stage_v9, stage_v12, stage_v16]

/-- mean = (Σ_w x) / 512, as a column. -/
theorem stage_v20 (a0 : FVec Ideal S16x1x1x512x1 .f32) (s : FVec Ideal S1x512 .f32) :
    divf (shapeCast S16x1 (multiReduction (F := Ideal) .add [1] S16 (val_main_v16 (F := Ideal) a0 s) 0x00000000#32 reduces_S16x512_S16 (.inl rfl) rfl) shapeCasts_S16_S16x1)
        (broadcast S16x1 (Scalar.ofBits (F := Ideal) .f32 0x44000000#32))
      = val_main_v20 (F := Ideal) a0 s := by
  funext i
  rw [val_main_v20_apply, val_main_v18_apply, val_main_v19_apply, val_main_cst_5_apply, val_main_v17_apply, val_main_cst_4_apply]
  show Ideal.div (shapeCast S16x1 (multiReduction (F := Ideal) .add [1] S16 (val_main_v16 (F := Ideal) a0 s) 0x00000000#32 reduces_S16x512_S16 (.inl rfl) rfl) shapeCasts_S16_S16x1 i) _ = Ideal.div (Ideal.ofBits .f32 0x00000000#32 + _) _
  rw [col_cast, rowsum_apply, Ideal.ofBits_zero_f32, zero_add]
  rfl

theorem pay5_eq (a0 : FVec Ideal S16x1x1x512x1 .f32) (s : FVec Ideal S1x512 .f32) :
    k0_pay5 (val_main_v1 (F := Ideal) a0) s = val_main_v20 (F := Ideal) a0 s := by
  unfold k0_pay5
  dsimp only
  rw [pay4_eq, stage_v20]

/-- r = 0.25 / mean. -/
theorem pay6_eq (a0 : FVec Ideal S16x1x1x512x1 .f32) (s : FVec Ideal S1x512 .f32) :
    k0_pay6 (val_main_v1 (F := Ideal) a0) s = val_main_v22 (F := Ideal) a0 s := by
  unfold k0_pay6
  dsimp only
  rw [pay5_eq]
  funext i
  rw [val_main_v22_apply, val_main_v21_apply, val_main_cst_6_apply]
  rfl

/-- β = 0.75 / (1 - mean). -/
theorem pay7_eq (a0 : FVec Ideal S16x1x1x512x1 .f32) (s : FVec Ideal S1x512 .f32) :
    k0_pay7 (val_main_v1 (F := Ideal) a0) s = val_main_v26 (F := Ideal) a0 s := by
  unfold k0_pay7
  dsimp only
  rw [pay5_eq]
  funext i
  rw [val_main_v26_apply, val_main_v25_apply, val_main_cst_8_apply, val_main_v24_apply, val_main_v23_apply, val_main_cst_7_apply]
  rfl

/-- THE PROBABILITIES: le x r + (1 - le)(1 - (1 - x) β) where the mask is zero, x elsewhere. -/
theorem pay1_eq (a0 : FVec Ideal S16x1x1x512x1 .f32) (s : FVec Ideal S1x512 .f32) :
    k0_pay1 (val_main_v1 (F := Ideal) a0) (val_main_v16 (F := Ideal) a0 s) (val_main_v22 (F := Ideal) a0 s) (val_main_v26 (F := Ideal) a0 s) (Scalar.ofBits (F := Ideal) .f32 0x3F800000#32)
      = val_main_v47 (F := Ideal) a0 s := by
  funext i
  unfold k0_pay1
  rw [val_main_v47_apply, val_main_v46_apply, val_main_v45_apply, val_main_cst_13_apply, val_main_v44_apply, val_main_v33_apply, val_main_v43_apply,
    val_main_v31_apply, val_main_v32_apply, val_main_v30_apply, val_main_v29_apply, val_main_v28_apply, val_main_v27_apply, val_main_cst_9_apply,
    val_main_v42_apply, val_main_v41_apply, val_main_v35_apply, val_main_v34_apply, val_main_cst_10_apply, val_main_v40_apply, val_main_cst_12_apply,
    val_main_v39_apply, val_main_v37_apply, val_main_v38_apply, val_main_v36_apply, val_main_cst_11_apply, val_main_v29_apply, val_main_v28_apply, val_main_v27_apply, val_main_cst_9_apply]
  simp only [select_apply, cmpf_apply, addf_apply, mulf_apply, subf_apply, broadcast_apply, col_bcast, sitofp_apply, extui_apply, bit_real,
    Ideal.mulf_def, Ideal.addf_def, Ideal.subf_def]

/-! ## The two [16, 512] results reshaped to [16, 1, 1, 512, 1] -/

/-- A [16, 512] array cast to [16, 1, 1, 512, 1], at (b, 0, 0, w, 0), is the array at the index of the same row-major offset. -/
theorem cast5_apply {α : Type} (y : S16x512.Idx → α) (i : S16x1x1x512x1.Idx) :
    shapeCast S16x1x1x512x1 y shapeCasts_S16x512_S16x1x1x512x1 i = y (idx_main_v50 i) :=
  shapeCast_apply y shapeCasts_S16x512_S16x1x1x512x1 i (idx_main_v50 i) (by
    rw [Shape.rowMajor_val_two, Shape.rowMajor_val_five]
    have h0 : (i 0).val < 16 := (i 0).isLt
    have h1 : (i 1).val < 1 := (i 1).isLt
    have h2 : (i 2).val < 1 := (i 2).isLt
    have h3 : (i 3).val < 512 := (i 3).isLt
    have h4 : (i 4).val < 1 := (i 4).isLt
    show (((((i 0).val * 1 + (i 1).val) * 1 + (i 2).val) * 512 + (i 3).val) * 1 + (i 4).val) / 512 * 512
        + (((((i 0).val * 1 + (i 1).val) * 1 + (i 2).val) * 512 + (i 3).val) * 1 + (i 4).val) % 512
      = ((((i 0).val * 1 + (i 1).val) * 1 + (i 2).val) * 512 + (i 3).val) * 1 + (i 4).val
    omega)

/-- The mask reshaped to [16, 512], read where the reshape back reads it, is the mask. -/
theorem mask_back (a0 : FVec Ideal S16x1x1x512x1 .f32) (i : S16x1x1x512x1.Idx) :
    val_main_v1 (F := Ideal) a0 (idx_main_v50 i) = a0 i := by
  unfold val_main_v1
  exact (cast5_apply _ i).symm.trans (congrFun (shapeCast_shapeCast a0 _ shapeCasts_S16x512_S16x1x1x512x1) i)

/-- THE PROBABILITIES reshaped are the reference's third result. -/
theorem probs_eq (a0 : FVec Ideal S16x1x1x512x1 .f32) (s : FVec Ideal S1x512 .f32) :
    shapeCast S16x1x1x512x1 (val_main_v47 (F := Ideal) a0 s) shapeCasts_S16x512_S16x1x1x512x1 = val_main_v51 (F := Ideal) a0 s := rfl

/-- THE NEW MASK reshaped is the reference's first result: M + [probs > u], the sum taken before or after the reshape. -/
theorem nm_eq (a0 : FVec Ideal S16x1x1x512x1 .f32) (s : FVec Ideal S1x512 .f32) (u : FVec Ideal S16x512 .f32) :
    shapeCast S16x1x1x512x1 (k0_pay2 (val_main_v1 (F := Ideal) a0) (val_main_v16 (F := Ideal) a0 s) (val_main_v22 (F := Ideal) a0 s) (val_main_v26 (F := Ideal) a0 s) (Scalar.ofBits (F := Ideal) .f32 0x3F800000#32) u) shapeCasts_S16x512_S16x1x1x512x1
      = val_main_v52 (F := Ideal) a0 s u := by
  funext i
  rw [cast5_apply, val_main_v52_apply, val_main_v50_apply, val_main_v49_apply, val_main_v48_apply]
  unfold k0_pay2
  rw [pay1_eq]
  simp only [addf_apply, sitofp_apply, extui_apply, cmpf_apply, bit_real, mask_back, Ideal.addf_def]

end Cert.KernelIdeal.Stages

end
-- ==== Proof.KspaceBridge.lean ====
/-
  The masked k-space tensor. The kernel lays the tensor [16,8,512,512,2] out as [16,8,1024,512] (complex axis moved in
  front of the column axis, then merged with the row axis), multiplies by the new mask's row, and lays the product
  back; index by index that is  k[b,m,h,w,c] · n[b,w]  with n the new mask. The reference computes
  (n[b,w] · k[b,m,h,w,c]) · f  with f = -1 where k < 0 and n = 0, else 1. Over the extended reals the factor f
  changes nothing: where n = 0 the product is already 0, and elsewhere f = 1.
-/
import proofs.«118718_g5669356833984_cont_9to1c4b_606_6_alg».proof.Proof.MaskArrays
import proofs.«118718_g5669356833984_cont_9to1c4b_606_6_alg».proof.Proof.SampleStages

set_option maxRecDepth 16384

noncomputable section

namespace Cert.KernelIdeal.Kspace

open Cert.KernelIdeal Cert.KernelIdeal.Gen Cert.ReferenceIdeal.Read Idealize.ShloMosaic Idealize.ShloMosaic.ValueIdx
open Cert.KernelIdeal.Stages

/-! ## Indices -/

/-- (b, m, h, w, c) with the last two coordinates exchanged: (b, m, h, c, w). -/
abbrev swapIdx (i : S16x8x512x512x2.Idx) : S16x8x512x2x512.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 4).val, (i 4).isLt⟩
  | ⟨4, _⟩ => ⟨(i 3).val, (i 3).isLt⟩
/-- and with the row and complex coordinates merged: (b, m, 2h + c, w). -/
abbrev flatIdx (i : S16x8x512x512x2.Idx) : S16x8x1024x512.Idx := fun a => match a with
  | ⟨0, _⟩ => ⟨(i 0).val, (i 0).isLt⟩
  | ⟨1, _⟩ => ⟨(i 1).val, (i 1).isLt⟩
  | ⟨2, _⟩ => ⟨(i 2).val * 2 + (i 4).val, by have h2 : (i 2).val < 512 := (i 2).isLt; have h4 : (i 4).val < 2 := (i 4).isLt; show (i 2).val * 2 + (i 4).val < 1024; omega⟩
  | ⟨3, _⟩ => ⟨(i 3).val, (i 3).isLt⟩
/-- The mask's index (b, w). -/
abbrev bw (i : S16x8x512x512x2.Idx) : S16x512.Idx := fun a => match a with
  | ⟨0, _⟩ => ⟨(i 0).val, (i 0).isLt⟩
  | ⟨1, _⟩ => ⟨(i 3).val, (i 3).isLt⟩

theorem flat_swap (i : S16x8x512x512x2.Idx) :
    (S16x8x512x2x512.rowMajor (swapIdx i)).val = (S16x8x1024x512.rowMajor (flatIdx i)).val := by
  rw [Shape.rowMajor_val_five, Shape.rowMajor_val_four]
  show ((((i 0).val * 8 + (i 1).val) * 512 + (i 2).val) * 2 + (i 4).val) * 512 + (i 3).val
    = (((i 0).val * 8 + (i 1).val) * 1024 + ((i 2).val * 2 + (i 4).val)) * 512 + (i 3).val
  omega

/-! ## The layout operations read at an index -/

/-- The re-laid tensor at (b, m, 2h + c, w) is the tensor at (b, m, h, w, c). -/
theorem relay_apply {α : Type} (a1 : S16x8x512x512x2.Idx → α) (i : S16x8x512x512x2.Idx) :
    shapeCast S16x8x1024x512 (transpose S16x8x512x2x512 [0, 1, 2, 4, 3] a1 transposes_S16x8x512x512x2_S16x8x512x2x512_0_1_2_4_3) shapeCasts_S16x8x512x2x512_S16x8x1024x512 (flatIdx i) = a1 i := by
  rw [shapeCast_apply _ shapeCasts_S16x8x512x2x512_S16x8x1024x512 (flatIdx i) (swapIdx i) (flat_swap i)]
  exact transpose_apply [0, 1, 2, 4, 3] a1 transposes_S16x8x512x512x2_S16x8x512x2x512_0_1_2_4_3 (swapIdx i) i (fun b => match b with
    | ⟨0, _⟩ => rfl | ⟨1, _⟩ => rfl | ⟨2, _⟩ => rfl | ⟨3, _⟩ => rfl | ⟨4, _⟩ => rfl)

/-- An array [16,8,1024,512] laid back, at (b, m, h, w, c), is the array at (b, m, 2h + c, w). -/
theorem back_apply {α : Type} (y : S16x8x1024x512.Idx → α) (i : S16x8x512x512x2.Idx) :
    transpose S16x8x512x512x2 [0, 1, 2, 4, 3] (shapeCast S16x8x512x2x512 y shapeCasts_S16x8x1024x512_S16x8x512x2x512) transposes_S16x8x512x2x512_S16x8x512x512x2_0_1_2_4_3 i = y (flatIdx i) := by
  rw [transpose_apply [0, 1, 2, 4, 3] _ transposes_S16x8x512x2x512_S16x8x512x512x2_0_1_2_4_3 i (swapIdx i) (fun b => match b with
    | ⟨0, _⟩ => rfl | ⟨1, _⟩ => rfl | ⟨2, _⟩ => rfl | ⟨3, _⟩ => rfl | ⟨4, _⟩ => rfl)]
  exact shapeCast_apply y shapeCasts_S16x8x1024x512_S16x8x512x2x512 (swapIdx i) (flatIdx i) (flat_swap i).symm

/-- The new mask reshaped to [16, 1, 512], at the row index under (b, m, 2h + c, w), is the mask at (b, w). -/
theorem row_apply {α : Type} (nm : S16x512.Idx → α) (i : S16x8x512x512x2.Idx) :
    shapeCast S16x1x512 nm shapeCasts_S16x512_S16x1x512 (Mask.rowIdx (flatIdx i)) = nm (bw i) :=
  shapeCast_apply nm shapeCasts_S16x512_S16x1x512 (Mask.rowIdx (flatIdx i)) (bw i) (by
    rw [Shape.rowMajor_val_two, Shape.rowMajor_val_three]
    show (i 0).val * 512 + (i 3).val = ((i 0).val * 1 + 0) * 512 + (i 3).val
    omega)

/-- The new mask reshaped to [16, 1, 1, 512, 1], at (b, 0, 0, w, 0), is the mask at (b, w). -/
theorem bcast_apply {α : Type} (nm : S16x512.Idx → α) (i : S16x8x512x512x2.Idx) :
    shapeCast S16x1x1x512x1 nm shapeCasts_S16x512_S16x1x1x512x1 (idx_main_v53 i) = nm (bw i) := by
  rw [cast5_apply]
  refine congrArg nm (funext fun a => Fin.ext ?_)
  have h0 : (i 0).val < 16 := (i 0).isLt
  have h3 : (i 3).val < 512 := (i 3).isLt
  match a with
  | ⟨0, _⟩ => show (((((i 0).val * 1 + 0) * 1 + 0) * 512 + (i 3).val) * 1 + 0) / 512 = (i 0).val; omega
  | ⟨1, _⟩ => show (((((i 0).val * 1 + 0) * 1 + 0) * 512 + (i 3).val) * 1 + 0) % 512 = (i 3).val; omega

/-! ## The sign factor changes nothing -/

/-- `1.0` denotes the real one. -/
theorem ofBits_one : Ideal.ofBits .f32 0x3F800000#32 = 1 := by
  simp [Ideal.ofBits, Ideal.ieee, -EReal.coe_mul]; norm_num

/-- (n k) f = k n, where f is -1 if k < 0 and n = 0, else 1: at n = 0 both sides vanish, elsewhere f = 1. -/
theorem fix_mul (n k neg : EReal) :
    (n * k) * Scalar.select (IntOp.andi (Ideal.cmp .olt k (Ideal.ofBits .f32 0x00000000#32)) (Ideal.cmp .oeq n (Ideal.ofBits .f32 0x00000000#32))) neg (Ideal.ofBits .f32 0x3F800000#32)
      = k * n := by
  rw [Ideal.ofBits_zero_f32]
  by_cases hn : n = 0
  · rw [hn, zero_mul, zero_mul, mul_zero]
  · have h0 : Ideal.cmp .oeq n 0 = 0#1 := by
      show BitVec.ofBool (decide (n = 0)) = 0#1
      rw [decide_eq_false hn]; rfl
    rw [h0]
    have h1 : ∀ b : BitVec 1, IntOp.andi b 0#1 = 0#1 := by decide
    rw [h1, select_zero, ofBits_one, mul_one, mul_comm]

/-! ## The whole array -/

/-- THE MASKED K-SPACE TENSOR: the kernel's product laid back is the reference's second result, for any array `nm`
    whose reshape to [16, 1, 1, 512, 1] is the reference's new mask. -/
theorem kspace_eq (a0 : FVec Ideal S16x1x1x512x1 .f32) (a1 : FVec Ideal S16x8x512x512x2 .f32) (s : FVec Ideal S1x512 .f32) (u : FVec Ideal S16x512 .f32)
    (nm : FVec Ideal S16x512 .f32)
    (hnm : shapeCast S16x1x1x512x1 nm shapeCasts_S16x512_S16x1x1x512x1 = val_main_v52 (F := Ideal) a0 s u) :
    transpose S16x8x512x512x2 [0, 1, 2, 4, 3]
        (shapeCast S16x8x512x2x512
          (Mask.prod (F := Ideal) (shapeCast S16x1x512 nm shapeCasts_S16x512_S16x1x512)
            (shapeCast S16x8x1024x512 (transpose S16x8x512x2x512 [0, 1, 2, 4, 3] a1 transposes_S16x8x512x512x2_S16x8x512x2x512_0_1_2_4_3) shapeCasts_S16x8x512x2x512_S16x8x1024x512))
          shapeCasts_S16x8x1024x512_S16x8x512x2x512)
        transposes_S16x8x512x2x512_S16x8x512x512x2_0_1_2_4_3
      = val_main_v63 (F := Ideal) a0 a1 s u := by
  funext i
  rw [back_apply]
  show shapeCast S16x8x1024x512 (transpose S16x8x512x2x512 [0, 1, 2, 4, 3] a1 transposes_S16x8x512x512x2_S16x8x512x2x512_0_1_2_4_3) shapeCasts_S16x8x512x2x512_S16x8x1024x512 (flatIdx i)
      * shapeCast S16x1x512 nm shapeCasts_S16x512_S16x1x512 (Mask.rowIdx (flatIdx i)) = _
  rw [relay_apply, row_apply]
  rw [val_main_v63_apply, val_main_v54_apply, val_main_v53_apply, val_main_v62_apply, val_main_v61_apply, val_main_v60_apply,
    val_main_v56_apply, val_main_v55_apply, val_main_cst_14_apply, val_main_v59_apply, val_main_v58_apply, val_main_v57_apply,
    val_main_cst_15_apply, val_main_call2_v0_apply, val_main_cst_16_apply, val_main_call2_v1_apply, val_main_cst_17_apply, ← hnm]
  rw [show idx_main_v59 i = idx_main_v53 i from rfl, bcast_apply]
  exact (fix_mul _ _ _).symm

end Cert.KernelIdeal.Kspace

end
-- ==== Proof.KernelValue.lean ====
/-
  The three results of the kernel's program after its run, as the reference's stages of the launch arguments.
  Chained here: the buffers at the program's last boundary read back to the two regions' result arrays; the sampling
  region's arrays as the body's result of the reshaped mask, the sampler row and the uniform draws; that result as the
  reference's probabilities and new mask; and the masking region's array laid back as the reference's masked tensor.
-/
import proofs.«118718_g5669356833984_cont_9to1c4b_606_6_alg».proof.Proof.RunAll
import proofs.«118718_g5669356833984_cont_9to1c4b_606_6_alg».proof.Proof.KernelArrays
import proofs.«118718_g5669356833984_cont_9to1c4b_606_6_alg».proof.Proof.SampleArrays
import proofs.«118718_g5669356833984_cont_9to1c4b_606_6_alg».proof.Proof.KspaceBridge

set_option maxRecDepth 16384

noncomputable section

namespace Cert.KernelIdeal.Result

open Cert.KernelIdeal Cert.KernelIdeal.Gen Cert.ReferenceIdeal.Read Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-- The sampling body's first store, over the reshaped mask: the reference's probabilities. -/
theorem out3_eq (a0 : FVec Ideal S16x1x1x512x1 .f32) (s : FVec Ideal S1x512 .f32) (u : FVec Ideal S16x512 .f32) :
    out0_3 (F := Ideal) (val_main_v1 (F := Ideal) a0) s u = val_main_v47 (F := Ideal) a0 s := by
  unfold out0_3
  rw [View.canon_unit_zero hz2]
  simp only [View.ld_unit_zero (S := S16x512) hz2, View.ld_unit_zero (S := S1x512) hz2]
  rw [Stages.pay3_eq, Stages.pay4_eq, Stages.pay6_eq, Stages.pay7_eq, Stages.pay1_eq]

/-- Its second store, reshaped: the reference's new mask. -/
theorem out4_eq (a0 : FVec Ideal S16x1x1x512x1 .f32) (s : FVec Ideal S1x512 .f32) (u : FVec Ideal S16x512 .f32) :
    shapeCast S16x1x1x512x1 (out0_4 (F := Ideal) (val_main_v1 (F := Ideal) a0) s u) shapeCasts_S16x512_S16x1x1x512x1 = val_main_v52 (F := Ideal) a0 s u := by
  unfold out0_4
  rw [View.canon_unit_zero hz2]
  simp only [View.ld_unit_zero (S := S16x512) hz2, View.ld_unit_zero (S := S1x512) hz2]
  rw [Stages.pay3_eq, Stages.pay4_eq, Stages.pay6_eq, Stages.pay7_eq]
  exact Stages.nm_eq a0 s u

variable (m : (ℓ : Loc nD τ sig) → Buf (Elt Ideal) ℓ) (ρ : Dev nD → PrngReg)

/-- The probabilities' array after the sampling region. -/
theorem probs_arr (c : Dev nD) :
    (dat0 (V1 m ρ) c).arrAt 3 cfg0.N = val_main_v47 (F := Ideal) (m ((c : Thread nD τ).loc main_arg0)) (m ((c : Thread nD τ).loc main_arg2)) := by
  rw [Sample.probs_arr (V1 m ρ) c, Arrays.V1_v0, Arrays.V1_arg2, Arrays.V1_arg3]
  exact out3_eq _ _ _

/-- The new mask's array after the sampling region, reshaped. -/
theorem nm_arr (c : Dev nD) :
    shapeCast S16x1x1x512x1 ((dat0 (V1 m ρ) c).arrAt 4 cfg0.N) shapeCasts_S16x512_S16x1x1x512x1
      = val_main_v52 (F := Ideal) (m ((c : Thread nD τ).loc main_arg0)) (m ((c : Thread nD τ).loc main_arg2)) (m ((c : Thread nD τ).loc main_arg3)) := by
  rw [Sample.nm_arr (V1 m ρ) c, Arrays.V1_v0, Arrays.V1_arg2, Arrays.V1_arg3]
  exact out4_eq _ _ _

/-- RESULT 0, the new mask. -/
theorem v8_eq (c : Dev nD) :
    W5 m ρ c (Proc.devRef .tc main_v8)
      = val_main_v52 (F := Ideal) (m ((c : Thread nD τ).loc main_arg0)) (m ((c : Thread nD τ).loc main_arg2)) (m ((c : Thread nD τ).loc main_arg3)) := by
  rw [Arrays.W5_v8]
  exact nm_arr m ρ c

/-- RESULT 2, the probabilities. -/
theorem v9_eq (c : Dev nD) :
    W5 m ρ c (Proc.devRef .tc main_v9)
      = val_main_v51 (F := Ideal) (m ((c : Thread nD τ).loc main_arg0)) (m ((c : Thread nD τ).loc main_arg2)) := by
  rw [Arrays.W5_v9, probs_arr]
  rfl

/-- RESULT 1, the masked k-space tensor. -/
theorem v7_eq (c : Dev nD) :
    W5 m ρ c (Proc.devRef .tc main_v7)
      = val_main_v63 (F := Ideal) (m ((c : Thread nD τ).loc main_arg0)) (m ((c : Thread nD τ).loc main_arg1)) (m ((c : Thread nD τ).loc main_arg2)) (m ((c : Thread nD τ).loc main_arg3)) := by
  rw [Arrays.W5_v7, Mask.prod_arr (V3 m ρ) c, Arrays.V3_v4, Arrays.V3_v3]
  exact Kspace.kspace_eq _ _ _ _ _ (nm_arr m ρ c)

/-- THE KERNEL PROGRAM'S RUN at the extended reals: every weakly fair execution terminates with the three results at the
    reference's stages of the launch arguments, the arguments unchanged. -/
theorem run : θ_run defs (onTc (τ := τ) (main (F := Ideal))) ⟨m, fun _ => 0, ρ⟩ (fun r => ∀ c : Dev nD,
      r.2.mem ((c.tc : Thread nD τ).loc main_v8) = val_main_v52 (F := Ideal) (m ((c : Thread nD τ).loc main_arg0)) (m ((c : Thread nD τ).loc main_arg2)) (m ((c : Thread nD τ).loc main_arg3))
      ∧ r.2.mem ((c.tc : Thread nD τ).loc main_v7) = val_main_v63 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v9) = val_main_v51 (F := Ideal) (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v8 (by decide))).trans (v8_eq m ρ c),
     (h c _ (mem_uc main_v7 (by decide))).trans (v7_eq m ρ c),
     (h c _ (mem_uc main_v9 (by decide))).trans (v9_eq m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩)
    (run_all m ρ)

end Cert.KernelIdeal.Result

end
-- ==== Proof.lean ====
/-
  The certificate of a stochastic sampling-mask kernel against its jnp reference, over the extended reals.

  From a mask M [16,1,1,512,1], a k-space tensor K [16,8,512,512,2], sampler parameters s [1,512] and uniform draws
  u [16,512] both programs compute
    p = softplus(10 s) / 10,   q = p / max_w((1 - M) p),   x = q (1 - M),   mean = (Σ_w x) / 512,
    r = 0.25 / mean,   β = 0.75 / (1 - mean),   le = [r ≤ 1],
    probs = le x r + (1 - le)(1 - (1 - x) β)  where M = 0,  x elsewhere,
    new mask n = M + [probs > u],
  and return n, the masked tensor and probs. The kernel does the sampling in one gridless kernel region and the masking,
  K · n, in a second region over a 16 × 8 grid on the tensor re-laid as [16,8,1024,512]; the reference works on the host
  and multiplies n · K once more by a sign factor, -1 where K < 0 and n = 0 and 1 elsewhere, which over the extended
  reals changes nothing (where n = 0 the product is 0 already). The sampling stages agree operation by operation:
  the kernel's lane reductions are the host's row reductions, its `0 - |x|` the host's `-|x|`, and a comparison bit
  widened and read signed is the bit read unsigned.

  The frames of the two kernel programs are the generated ones; the reference's is its generated run with the results
  dropped. The kernel's value (Proof/KernelValue.lean) is read off the frame's run with every buffer named
  (Proof/RunAll.lean), through the two regions' result arrays (Proof/SampleArrays.lean, Proof/MaskArrays.lean) and
  the host stretches between them (Proof/KernelArrays.lean), and set beside the reference's stages
  (Proof/SampleStages.lean, Proof/KspaceBridge.lean).
-/
import proofs.«118718_g5669356833984_cont_9to1c4b_606_6_alg».proof.Defs
import proofs.«118718_g5669356833984_cont_9to1c4b_606_6_alg».proof.Proof.Gen.Kernel
import proofs.«118718_g5669356833984_cont_9to1c4b_606_6_alg».proof.Proof.Gen.Kernel.Skeleton
import proofs.«118718_g5669356833984_cont_9to1c4b_606_6_alg».proof.Proof.Gen.Kernel.Launch
import proofs.«118718_g5669356833984_cont_9to1c4b_606_6_alg».proof.Proof.Gen.Kernel.Points
import proofs.«118718_g5669356833984_cont_9to1c4b_606_6_alg».proof.Proof.Gen.Kernel.Frame
import proofs.«118718_g5669356833984_cont_9to1c4b_606_6_alg».proof.Proof.Gen.KernelIdeal
import proofs.«118718_g5669356833984_cont_9to1c4b_606_6_alg».proof.Proof.Gen.KernelIdeal.Skeleton
import proofs.«118718_g5669356833984_cont_9to1c4b_606_6_alg».proof.Proof.Gen.KernelIdeal.Launch
import proofs.«118718_g5669356833984_cont_9to1c4b_606_6_alg».proof.Proof.Gen.KernelIdeal.Points
import proofs.«118718_g5669356833984_cont_9to1c4b_606_6_alg».proof.Proof.Gen.KernelIdeal.Frame
import proofs.«118718_g5669356833984_cont_9to1c4b_606_6_alg».proof.Proof.Gen.ReferenceIdeal
import proofs.«118718_g5669356833984_cont_9to1c4b_606_6_alg».proof.Proof.Gen.ReferenceIdeal.Run
import proofs.«118718_g5669356833984_cont_9to1c4b_606_6_alg».proof.Proof.Gen.ReferenceIdeal.Read
import proofs.«118718_g5669356833984_cont_9to1c4b_606_6_alg».proof.Proof.Gen.Pre_finite_inputs
import proofs.«118718_g5669356833984_cont_9to1c4b_606_6_alg».proof.Proof.KernelValue
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ
/-- So does its reading at the extended reals. -/
theorem frame_ki : Cert.frame_KernelIdeal := fun m ρ _ => Cert.KernelIdeal.Gen.frame m ρ
/-- The reference runs and keeps its arguments: its run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing: there is nothing to preserve. -/
theorem preserves : Cert.preserves_Kernel_KernelIdeal := trivial

/-- From memories agreeing on the four arguments both programs end with the same three results: the kernel's run
    states them as the reference's stages of its own arguments, the reference's run as those stages of its arguments. -/
theorem algebraic : Cert.algebraic_KernelIdeal_ReferenceIdeal := by
  intro m ρ m' ρ' _ hagree
  refine ⟨_, _, _, Cert.KernelIdeal.Result.run m ρ, ?_⟩
  refine (θ_run Cert.ReferenceIdeal.defs _ _).mono (fun r h c => ?_) (Cert.ReferenceIdeal.Value.run (F := Ideal) m' ρ')
  obtain ⟨h52, h63, h51, h0, h1, h2, h3⟩ := h c
  obtain ⟨e0, e1, e2, e3⟩ := hagree c
  refine ⟨?_, ?_, ?_, h0, h1, h2, h3⟩
  · rw [h52, Cert.ReferenceIdeal.Read.val_main_v52_eq, e0, e2, e3]
  · rw [h63, Cert.ReferenceIdeal.Read.val_main_v63_eq, e0, e1, e2, e3]
  · rw [h51, Cert.ReferenceIdeal.Read.val_main_v51_eq, e0, e2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
